-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_qmax" .f32 0x38000100#32 ((1 / 32767 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096x1x1 : Shape := ⟨4, ![8192, 4096, 1, 1]⟩
abbrev S4096x4096 : Shape := ⟨2, ![4096, 4096]⟩
abbrev S4096 : Shape := ⟨1, ![4096]⟩
abbrev S_ : Shape := ⟨0, ![]⟩

class Facts : Prop where
  bcast_S_S8192x4096x1x1 : S_.BroadcastsInDim S8192x4096x1x1 (![] : Fin 0 → Fin S8192x4096x1x1.rank)
  reducesTo_S8192x4096x1x1_S_d0_1_2_3 : S8192x4096x1x1.ReducesTo [0, 1, 2, 3] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8192x4096x1x1 .f32) (main_arg1 : FVec F S4096x4096 .f32) (main_arg2 : FVec F S4096x4096 .f32) (main_arg3 : FVec F S4096 .f32) (main_arg4 : FVec F S4096 .f32) (main_arg5 : FVec F S4096 .f32) : IVec S_ 1 :=
  let main_v0 : FVec F S8192x4096x1x1 .f32 := Host.absf main_arg0
  let main_cst : FVec F S_ .f32 := constant S_ .f32 0x7F800000#32
  let main_v1 : FVec F S8192x4096x1x1 .f32 := broadcastInDim S8192x4096x1x1 ![] bcast_S_S8192x4096x1x1 main_cst
  let main_v2 : IVec S8192x4096x1x1 1 := cmpf .olt main_v0 main_v1
  let main_c : IVec S_ 1 := constantI S_ 1 1#1
  let main_v3 : IVec S_ 1 := (fun x v => Host.reduce IntOp.andi x v reducesTo_S8192x4096x1x1_S_d0_1_2_3 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096x1x1 : Shape := ⟨4, ![8192, 4096, 1, 1]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S512x4096 : Shape := ⟨2, ![512, 4096]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 14
  | .vmem => 14
  | .smem => 0
  | _ => 0

abbrev bufTy : (tb : Table) → Fin (tcTables nBuf tb) → BufTy
  | .hbm, ⟨0, _⟩ => ⟨S8192x4096x1x1, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096x4096, .bf16⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S8192x4096, .f32⟩
  | .hbm, ⟨13, _⟩ => ⟨S8192x4096x1x1, .f32⟩
  | .local _ .vmem, ⟨0, _⟩ => ⟨S256x4096, .f32⟩
  | .local _ .vmem, ⟨1, _⟩ => ⟨S256x4096, .f32⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | _, _ => ⟨S8192x4096x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8192x4096x1x1_S8192x4096 : S8192x4096x1x1.ShapeCasts S8192x4096
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  broadcasts_S256x1_S256x512 : S256x1.Broadcasts S256x512
  inb_S256x512_S256x512_0_0 : ∀ a, (![0, 0] : Fin 2 → Nat) a + S256x512.size a ≤ S256x512.size a
  h_S256x512 : 0 < S256x512.numel
  shapeCasts_S8192x4096_S8192x4096x1x1 : S8192x4096.ShapeCasts S8192x4096x1x1
  dot_S256x4096_S512x4096_S256x512_1_1_0_0_n_n_wf : DotDims.WF S256x4096 S512x4096 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .bf16 = 32 ∨ (Rect.block (s := S4096x4096) S512x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S8192x4096.size a
  hwx0_6 : ∀ i : grid0.Coords, EltTy.bits .f32 = 32 ∨ (Rect.block (s := S8192x4096) S256x512.size (cc0_transform_6 i) (hinb0_6 i)).WholeWords (EltTy.packing .f32)

variable [Facts₀]

def dot_S256x4096_S512x4096_S256x512_1_1_0_0_n_n : DotDims S256x4096 S512x4096 S256x512 where
  lhsContracting := [1]
  rhsContracting := [1]
  lhsNonContracting := [0]
  rhsNonContracting := [0]
  lhsBatch := []
  rhsBatch := []
  wf := dot_S256x4096_S512x4096_S256x512_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x4096x1x1 : Shape := ⟨4, ![8192, 4096, 1, 1]⟩
abbrev S4096x4096 : Shape := ⟨2, ![4096, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096x1x1, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .i1⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S1x4096, .f32⟩
  | .hbm, ⟨51, _⟩ => ⟨S8192x4096, .f32⟩
  | .hbm, ⟨52, _⟩ => ⟨S8192x4096, .f32⟩
  | .hbm, ⟨53, _⟩ => ⟨S8192x4096x1x1, .f32⟩
  | _, _ => ⟨S8192x4096x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_cst_2 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩

abbrev nD : Nat := 1
abbrev τ : Topo := Topo.v7x

variable {F : FTy → Type} [FloatOps F]

class Facts₀ : Prop where
  shapeCasts_S8192x4096x1x1_S8192x4096 : S8192x4096x1x1.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4096x1x1 : S8192x4096.ShapeCasts S8192x4096x1x1
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  Dual-plane int8 linear layer over int16 fake-quantised activations, as ONE function on the extended reals.

  A row `xr` of the activations has the scale `softplus (max_k |xr k|) / 32767`; each entry is divided by the row's
  scale, rounded to the nearest integer (ties to even) and clipped to [-32768, 32767]; output channel `o` of the row is
    ((Σ_k q k · w0 o k) · s0 o + (Σ_k q k · w1 o k) · s1 o) · scale + bias o.
  Everything depends on the row of the activations and on ROW `o` of each weight plane only, so the value is stated
  as a function `outElem` of those rows: a tiled evaluation and a whole-array one differ only in where they read the rows.
  softplus is spelt `max a 0 + log (1 + exp (0 - |a - 0|))`, the form both programs evaluate.
-/
import Idealize.ShloMosaic.Lib.ValueIdx
import Idealize.ShloMosaic.PureOps.Ideal.Laws

noncomputable section

open scoped BigOperators
open Idealize.ShloMosaic Idealize.ShloMosaic.ValueIdx

namespace Cert.FakeQuant

/-- −∞: what a row's running maximum starts from. -/
abbrev negInf : EReal := Ideal.ofBits .f32 0xFF800000#32
/-- The zero of softplus' spelling. -/
abbrev zero : EReal := Ideal.ofBits .f32 0x00000000#32
/-- The int16 range's ends, −32768 and 32767. -/
abbrev qmin : EReal := Ideal.ofBits .f32 0xC7000000#32
abbrev qmax : EReal := Ideal.ofBits .f32 0x46FFFE00#32
/-- The reciprocal of the largest int16 value, as the exact rational. -/
abbrev invQmax : EReal := ((1 / 32767 : ℝ) : EReal)

/-- The magnitude of an extended real. -/
def mag (v : EReal) : EReal := max v (-v)

/-- The largest magnitude in a row, from −∞. -/
def rowAmax (xr : Fin 4096 → EReal) : EReal :=
  (Finset.univ : Finset (Fin 4096)).fold max negInf (fun k => mag (xr k))

/-- softplus, in its log-add-exp spelling against zero. -/
def softplus (a : EReal) : EReal :=
  max a zero + Ideal.log1p (Ideal.exp (zero - mag (a - zero)))

/-- A row's quantisation step. -/
def rowScale (xr : Fin 4096 → EReal) : EReal := softplus (rowAmax xr) * invQmax

/-- An entry in steps of `s`, rounded to the nearest integer and clipped to the int16 range. -/
def quant (s v : EReal) : EReal :=
  min qmax (max qmin (Ideal.liftRound Ideal.roundHalfEven (Ideal.div v s)))

/-- One output element from the activations' row, the channel's row of each weight plane, its two scales and its bias. -/
def outElem (xr w0r w1r : Fin 4096 → EReal) (s0 s1 b : EReal) : EReal :=
  ((∑ k : Fin 4096, quant (rowScale xr) (xr k) * w0r k) * s0
    + (∑ k : Fin 4096, quant (rowScale xr) (xr k) * w1r k) * s1) * rowScale xr + b

/-- The whole result: element (n, o) from row n of the activations and row o of the weight planes. -/
def G (x : (⟨2, ![8192, 4096]⟩ : Shape).Idx → EReal) (w0 w1 : (⟨2, ![4096, 4096]⟩ : Shape).Idx → EReal)
    (s0 s1 b : (⟨1, ![4096]⟩ : Shape).Idx → EReal) : (⟨2, ![8192, 4096]⟩ : Shape).Idx → EReal := fun i =>
  outElem (fun k => x (ix2 (⟨(i 0).val, idx2_lt0 i⟩ : Fin 8192) k))
    (fun k => w0 (ix2 (⟨(i 1).val, idx2_lt1 i⟩ : Fin 4096) k)) (fun k => w1 (ix2 (⟨(i 1).val, idx2_lt1 i⟩ : Fin 4096) k))
    (s0 (ix1 (⟨(i 1).val, idx2_lt1 i⟩ : Fin 4096))) (s1 (ix1 (⟨(i 1).val, idx2_lt1 i⟩ : Fin 4096)))
    (b (ix1 (⟨(i 1).val, idx2_lt1 i⟩ : Fin 4096)))

/-! ## The scalar facts the two spellings meet in -/

/-- No extended real differs from itself: the not-a-number test of softplus' spelling is never taken,
    whether it is written as an ordered or as an unordered comparison. -/
theorem cmp_one_self (a : EReal) : Ideal.cmp .one a a = 0#1 := by simp [Ideal.cmp]
theorem cmp_une_self (a : EReal) : Ideal.cmp .une a a = 0#1 := by simp [Ideal.cmp]

/-- A negation is the difference from zero. -/
theorem neg_eq_zero_sub (v : EReal) : -v = zero - v := by
  rw [zero, Ideal.ofBits_zero_f32, zero_sub]

/-- The word 0x46FFFE00 is 32767. -/
theorem qmax_eq : qmax = ((32767 : ℝ) : EReal) := by
  simp [qmax, Ideal.ofBits, Ideal.ieee, -EReal.coe_mul]; norm_num

/-- Dividing by 32767 is multiplying by its reciprocal, on every extended real. -/
theorem div_qmax (v : EReal) : Ideal.div v qmax = v * invQmax := by
  rw [qmax_eq]; exact Ideal.div_coe (by norm_num : (32767 : ℝ) ≠ 0) v

end Cert.FakeQuant

end
-- ==== Proof.KernelTile.lean ====
/-
  One tile of the kernel read at an element.

  The body sees a [256, 4096] block of the activations (256 whole rows), a [512, 4096] block of each weight plane
  (512 whole rows) and the matching [1, 512] pieces of the two scales and the bias, and stores a [256, 512] tile.
  Because every block holds WHOLE rows of the contraction axis, row p of the tile's activations has its own largest
  magnitude and its own scale inside the tile, and element (p, q) of the stored tile is `FakeQuant.outElem` of row p of
  the activations' block, row q of each weight block, and entry q of each [1, 512] piece.
-/
import proofs.«424328_j1357209666480_3_alg».proof.Proof.Gen.KernelIdeal.Skeleton
import proofs.«424328_j1357209666480_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

open scoped BigOperators
open Idealize.ShloMosaic Idealize.ShloMosaic.ValueIdx

namespace Cert.KernelIdeal.Tile

open Cert.KernelIdeal Cert.KernelIdeal.Gen Cert.FakeQuant

/-- The kernel's folded reciprocal is the exact 1/32767. -/
theorem inv_qmax : Named.named (F := Ideal) κ "inv_qmax" (φ := .f32) 0x38000100#32 = invQmax :=
  IdealRules.named_const.ideal_named_scalar _ _ _ _ rfl

/-- The index over row p of the [256] result whose coordinate on the reduced axis is k, is (p, k). -/
theorem lift_row (p : Fin 256) (k : Fin (S256x4096.size 1)) :
    reduces_S256x4096_S256.lift (ix1 p) k = ix2 p (⟨k.val, k.isLt⟩ : Fin 4096) := by
  funext c
  apply Fin.ext
  rw [Shape.Reduces.lift_val]
  unfold Shape.Reduces.liftVal
  match c with
  | ⟨0, _⟩ => rfl
  | ⟨1, _⟩ => rfl

/-- A [256] column kept as [256, 1], read at (p, 0). -/
theorem keepdims_apply (v : FVec Ideal S256 .f32) (p : Fin 256) :
    shapeCast S256x1 v shapeCasts_S256_S256x1 (ix2 p (0 : Fin 1)) = v (ix1 p) :=
  shapeCast_apply v shapeCasts_S256_S256x1 _ _ (by
    rw [Shape.rowMajor_val_one, Shape.rowMajor_val_two]
    show p.val = p.val * 1 + 0
    omega)

/-- Row p's largest magnitude inside the block. -/
theorem amax_apply (xb : Vec Ideal S256x4096 .f32) (p : Fin 256) :
    multiReduction .maximumf [1] S256 (absf (k0_pay2 (F := Ideal) xb)) 0xFF800000#32 reduces_S256x4096_S256 (.inl rfl) rfl (ix1 p)
      = rowAmax (fun k => xb (ix2 p k)) := by
  refine (Ideal.multiReduction_maximumf_single (absf (k0_pay2 (F := Ideal) xb)) 0xFF800000#32 reduces_S256x4096_S256
    (.inl rfl) rfl (ix1 p)).trans ?_
  unfold rowAmax k0_pay2
  rw [shapeCast_self]
  show (Finset.univ : Finset (Fin 4096)).fold max negInf (fun k => mag (xb (reduces_S256x4096_S256.lift (ix1 p) k))) = _
  congr 1
  funext k
  rw [lift_row]
  rfl

/-- A [256, 1] column spread over the 4096 columns, read at (p, k). -/
theorem spread4096_apply (v : FVec Ideal S256x1 .f32) (p : Fin 256) (k : Fin 4096) :
    broadcastTo S256x4096 v broadcasts_S256x1_S256x4096 (ix2 p k) = v (ix2 p (0 : Fin 1)) :=
  broadcastTo_apply v broadcasts_S256x1_S256x4096 (ix2 p k) (ix2 p (0 : Fin 1)) fun a => by
    match a with
    | ⟨0, _⟩ => show p.val = if (256 : Nat) = 1 then 0 else p.val; rw [if_neg (by decide)]
    | ⟨1, _⟩ => show 0 = if (1 : Nat) = 1 then 0 else k.val; rw [if_pos rfl]

/-- The same column spread over the 512 columns of the tile, read at (p, q). -/
theorem spread512_apply (v : FVec Ideal S256x1 .f32) (p : Fin 256) (q : Fin 512) :
    broadcastTo S256x512 v broadcasts_S256x1_S256x512 (ix2 p q) = v (ix2 p (0 : Fin 1)) :=
  broadcastTo_apply v broadcasts_S256x1_S256x512 (ix2 p q) (ix2 p (0 : Fin 1)) fun a => by
    match a with
    | ⟨0, _⟩ => show p.val = if (256 : Nat) = 1 then 0 else p.val; rw [if_neg (by decide)]
    | ⟨1, _⟩ => show 0 = if (1 : Nat) = 1 then 0 else q.val; rw [if_pos rfl]

/-- What the body makes of a [256, 1] column of row maxima: softplus in its log-add-exp spelling (with the
    not-a-number branch the spelling carries), times the named reciprocal. -/
def colScale (v4 : FVec Ideal S256x1 .f32) : FVec Ideal S256x1 .f32 :=
  mulf
    (select
      (cmpf .one (subf v4 (broadcast S256x1 (Scalar.ofBits (F := Ideal) .f32 0x00000000#32)))
        (subf v4 (broadcast S256x1 (Scalar.ofBits (F := Ideal) .f32 0x00000000#32))))
      (addf v4 (broadcast S256x1 (Scalar.ofBits (F := Ideal) .f32 0x00000000#32)))
      (addf (maximumf v4 (broadcast S256x1 (Scalar.ofBits (F := Ideal) .f32 0x00000000#32)))
        (log1p (exp (subf (broadcast S256x1 (Scalar.ofBits (F := Ideal) .f32 0x00000000#32))
          (absf (subf v4 (broadcast S256x1 (Scalar.ofBits (F := Ideal) .f32 0x00000000#32)))))))))
    (broadcast S256x1 (Named.named (F := Ideal) κ "inv_qmax" (φ := .f32) 0x38000100#32))

/-- At every entry it is softplus of the entry times 1/32767: no extended real differs from itself, so the
    not-a-number branch is never taken. -/
theorem colScale_apply (v4 : FVec Ideal S256x1 .f32) (i : S256x1.Idx) :
    colScale v4 i = softplus (v4 i) * invQmax := by
  show Scalar.select (Ideal.cmp .one (v4 i - zero) (v4 i - zero)) (v4 i + zero)
      (max (v4 i) zero + Ideal.log1p (Ideal.exp (zero - mag (v4 i - zero))))
    * Named.named (F := Ideal) κ "inv_qmax" (φ := .f32) 0x38000100#32 = softplus (v4 i) * invQmax
  rw [cmp_one_self, select_zero, inv_qmax]
  rfl

/-- The body's scale column is `colScale` of the block's row maxima kept as a column. -/
theorem pay3_eq (xb : Vec Ideal S256x4096 .f32) :
    k0_pay3 (F := Ideal) xb
      = colScale (shapeCast S256x1
          (multiReduction .maximumf [1] S256 (absf (k0_pay2 (F := Ideal) xb)) 0xFF800000#32 reduces_S256x4096_S256 (.inl rfl) rfl)
          shapeCasts_S256_S256x1) := rfl

/-- Row p's quantisation step inside the block: softplus of the row's largest magnitude, times 1/32767. -/
theorem scale_apply (xb : Vec Ideal S256x4096 .f32) (p : Fin 256) :
    k0_pay3 (F := Ideal) xb (ix2 p (0 : Fin 1)) = rowScale (fun k => xb (ix2 p k)) := by
  rw [pay3_eq]
  refine (colScale_apply _ _).trans ?_
  rw [keepdims_apply, amax_apply]
  rfl

/-- The block as loaded is the block: its shape cast is to its own shape. -/
theorem pay2_eq (xb : Vec Ideal S256x4096 .f32) : k0_pay2 (F := Ideal) xb = xb := shapeCast_self _ _

/-- What the body makes of a block and its rows' steps spread over the columns: the quotient, rounded to the nearest
    integer (ties to even), clipped to the int16 range and narrowed to bf16. -/
def quantVec (x sc : FVec Ideal S256x4096 .f32) : FVec Ideal S256x4096 .bf16 :=
  truncf .bf16
    (minimumf (broadcast S256x4096 (Scalar.ofBits (F := Ideal) .f32 0x46FFFE00#32))
      (maximumf (broadcast S256x4096 (Scalar.ofBits (F := Ideal) .f32 0xC7000000#32)) (roundeven (divf x sc))))
    bitsLt_bf16_f32

/-- Entry by entry it is `quant`: narrowing an extended real changes nothing. -/
theorem quantVec_apply (x sc : FVec Ideal S256x4096 .f32) (i : S256x4096.Idx) :
    quantVec x sc i = quant (sc i) (x i) := rfl

/-- The body's quantised block is `quantVec` of the block and of its scale column spread over the columns. -/
theorem pay4_eq (xb : Vec Ideal S256x4096 .f32) :
    k0_pay4 (F := Ideal) xb
      = quantVec (k0_pay2 (F := Ideal) xb) (broadcastTo S256x4096 (k0_pay3 (F := Ideal) xb) broadcasts_S256x1_S256x4096) := rfl

/-- Entry (p, k) of the block in steps of its row's scale, rounded and clipped. -/
theorem pay4_apply (xb : Vec Ideal S256x4096 .f32) (p : Fin 256) (k : Fin 4096) :
    k0_pay4 (F := Ideal) xb (ix2 p k) = quant (rowScale (fun k => xb (ix2 p k))) (xb (ix2 p k)) := by
  rw [pay4_eq, quantVec_apply, spread4096_apply, scale_apply, pay2_eq]

/-! ### The tile's matrix product as a sum over the contraction axis -/

theorem lhs_dot_0 (i : S256x512.Idx) (q : dot_S256x4096_S512x4096_S256x512_1_1_0_0_n_n.contr.Idx) :
    (dot_S256x4096_S512x4096_S256x512_1_1_0_0_n_n.lhsIdx i q 0).val = (i 0).val := by
  unfold DotDims.lhsIdx
  rw [dif_neg (show ¬(0 : Fin S256x4096.rank) ∈ dot_S256x4096_S512x4096_S256x512_1_1_0_0_n_n.lhsBatch by decide), dif_pos (show (0 : Fin S256x4096.rank) ∈ dot_S256x4096_S512x4096_S256x512_1_1_0_0_n_n.lhsNonContracting by decide)]
  rfl
theorem lhs_dot_1 (i : S256x512.Idx) (q : dot_S256x4096_S512x4096_S256x512_1_1_0_0_n_n.contr.Idx) :
    (dot_S256x4096_S512x4096_S256x512_1_1_0_0_n_n.lhsIdx i q 1).val = (q ⟨0, by decide⟩).val :=
  dot_S256x4096_S512x4096_S256x512_1_1_0_0_n_n.lhsIdx_val_of_single rfl i q
theorem rhs_dot_0 (i : S256x512.Idx) (q : dot_S256x4096_S512x4096_S256x512_1_1_0_0_n_n.contr.Idx) :
    (dot_S256x4096_S512x4096_S256x512_1_1_0_0_n_n.rhsIdx i q 0).val = (i 1).val := by
  unfold DotDims.rhsIdx
  rw [dif_neg (show ¬(0 : Fin S512x4096.rank) ∈ dot_S256x4096_S512x4096_S256x512_1_1_0_0_n_n.rhsBatch by decide), dif_pos (show (0 : Fin S512x4096.rank) ∈ dot_S256x4096_S512x4096_S256x512_1_1_0_0_n_n.rhsNonContracting by decide)]
  rfl
theorem rhs_dot_1 (i : S256x512.Idx) (q : dot_S256x4096_S512x4096_S256x512_1_1_0_0_n_n.contr.Idx) :
    (dot_S256x4096_S512x4096_S256x512_1_1_0_0_n_n.rhsIdx i q 1).val = (q ⟨0, by decide⟩).val :=
  dot_S256x4096_S512x4096_S256x512_1_1_0_0_n_n.rhsIdx_val_of_single rfl i q

/-- Into a zero accumulator, element (p, q) of the product contracting both operands' second axis is
    Σ_k lhs (p, k) · rhs (q, k). -/
theorem dot_apply (lhs : FVec Ideal S256x4096 .bf16) (rhs : FVec Ideal S512x4096 .bf16) (p : Fin 256) (q : Fin 512) :
    matmul dot_S256x4096_S512x4096_S256x512_1_1_0_0_n_n none lhs rhs (constant (F := Ideal) S256x512 .f32 0x00000000#32) (ix2 p q)
      = ∑ k : Fin 4096, lhs (ix2 p k) * rhs (ix2 q k) := by
  simp only [matmul]
  rw [Ideal.matmul_constant_zero_apply, ← Equiv.sum_comp (ValueIdx.contrEquiv1 dot_S256x4096_S512x4096_S256x512_1_1_0_0_n_n 4096 rfl rfl).symm]
  refine Finset.sum_congr rfl fun k _ => ?_
  have hk := ValueIdx.contrEquiv1_symm_val dot_S256x4096_S512x4096_S256x512_1_1_0_0_n_n 4096 rfl rfl k
  have el : dot_S256x4096_S512x4096_S256x512_1_1_0_0_n_n.lhsIdx (ix2 p q) ((ValueIdx.contrEquiv1 dot_S256x4096_S512x4096_S256x512_1_1_0_0_n_n 4096 rfl rfl).symm k) = ix2 p k := funext fun a => Fin.ext (by
    match a with
    | ⟨0, _⟩ => exact lhs_dot_0 _ _
    | ⟨1, _⟩ => exact (lhs_dot_1 _ _).trans hk)
  have er : dot_S256x4096_S512x4096_S256x512_1_1_0_0_n_n.rhsIdx (ix2 p q) ((ValueIdx.contrEquiv1 dot_S256x4096_S512x4096_S256x512_1_1_0_0_n_n 4096 rfl rfl).symm k) = ix2 q k := funext fun a => Fin.ext (by
    match a with
    | ⟨0, _⟩ => exact rhs_dot_0 _ _
    | ⟨1, _⟩ => exact (rhs_dot_1 _ _).trans hk)
  rw [el, er]

/-- The tile's product with a weight block: row p's quantised entries against row q of the block. -/
theorem pay5_apply (xb : Vec Ideal S256x4096 .f32) (wb : Vec Ideal S512x4096 .bf16) (p : Fin 256) (q : Fin 512) :
    k0_pay5 (F := Ideal) xb wb (ix2 p q)
      = ∑ k : Fin 4096, quant (rowScale (fun k => xb (ix2 p k))) (xb (ix2 p k)) * wb (ix2 q k) := by
  have e : k0_pay5 (F := Ideal) xb wb
      = matmul dot_S256x4096_S512x4096_S256x512_1_1_0_0_n_n none (k0_pay4 (F := Ideal) xb) (shapeCast S512x4096 wb shapeCasts_S512x4096_S512x4096)
          (constant (F := Ideal) S256x512 .f32 0x00000000#32) := rfl
  rw [e, shapeCast_self]
  refine (dot_apply _ _ p q).trans ?_
  refine Finset.sum_congr rfl fun k _ => ?_
  rw [pay4_apply]

/-- The second product is the same function of its weight block. -/
theorem pay6_eq (xb : Vec Ideal S256x4096 .f32) (wb : Vec Ideal S512x4096 .bf16) :
    k0_pay6 (F := Ideal) xb wb = k0_pay5 (F := Ideal) xb wb := rfl

/-- The combine, at (p, q): the two products weighted by the channel's scales, times the row's step, plus the bias. -/
theorem pay1_apply (v20 : FVec Ideal S256x1 .f32) (v33 v34 : FVec Ideal S256x512 .f32) (v36 v38 : FVec Ideal S1x512 .f32)
    (v39 : Vec Ideal S1x512 .f32) (p : Fin 256) (q : Fin 512) :
    k0_pay1 (F := Ideal) v20 v33 v34 v36 v38 v39 (ix2 p q)
      = (v33 (ix2 p q) * v36 (ix2 (0 : Fin 1) q) + v34 (ix2 p q) * v38 (ix2 (0 : Fin 1) q)) * v20 (ix2 p (0 : Fin 1))
        + v39 (ix2 (0 : Fin 1) q) := by
  unfold k0_pay1
  rw [shapeCast_self]
  simp only [addf_apply, mulf_apply, broadcastTo_1b_ab_apply, spread512_apply]

/-- ELEMENT (p, q) OF THE STORED TILE: `outElem` of row p of the activations' block, row q of each weight block and
    entry q of the scales' and the bias' pieces. -/
theorem tile_apply (xb : Vec Ideal S256x4096 .f32) (w0b w1b : Vec Ideal S512x4096 .bf16) (s0b s1b bb : Vec Ideal S1x512 .f32)
    (p : Fin 256) (q : Fin 512) :
    k0_pay1 (F := Ideal) (k0_pay3 (F := Ideal) xb) (k0_pay5 (F := Ideal) xb w0b) (k0_pay6 (F := Ideal) xb w1b)
        (k0_pay7 (F := Ideal) s0b) (k0_pay8 (F := Ideal) s1b) bb (ix2 p q)
      = outElem (fun k => xb (ix2 p k)) (fun k => w0b (ix2 q k)) (fun k => w1b (ix2 q k))
          (s0b (ix2 (0 : Fin 1) q)) (s1b (ix2 (0 : Fin 1) q)) (bb (ix2 (0 : Fin 1) q)) := by
  rw [pay1_apply, scale_apply, pay6_eq, pay5_apply, pay5_apply]
  have e7 : k0_pay7 (F := Ideal) s0b = s0b := shapeCast_self _ _
  have e8 : k0_pay8 (F := Ideal) s1b = s1b := shapeCast_self _ _
  rw [e7, e8]
  rfl

end Cert.KernelIdeal.Tile

end
-- ==== Proof.KernelValue.lean ====
/-
  The kernel's result as one whole-array function.

  The grid has 8 × 32 points; point (j, i) reads rows 256·i … 256·i + 255 of the activations, rows 512·j … 512·j + 511 of
  each weight plane and entries 512·j … 512·j + 511 of the scales and the bias, and writes tile (i, j) of the [8192, 4096]
  result. By `Tile.tile_apply` the tile's element (p, q) is `FakeQuant.outElem` of the rows it reads, which are rows
  256·i + p of the activations and 512·j + q of the weights: the element (256·i + p, 512·j + q) of ONE function of the
  whole arrays. The 256 tiles cover the result, so the result array ends holding that function; the host's reshapes before
  and after the region only rename indices.
-/
import proofs.«424328_j1357209666480_3_alg».proof.Proof.Gen.KernelIdeal.Frame
import proofs.«424328_j1357209666480_3_alg».proof.Proof.KernelTile
import proofs.«424328_j1357209666480_3_alg».proof.Proof.Spec
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Tile Cert.FakeQuant

variable (m : (ℓ : Loc nD τ sig) → Buf (Elt Ideal) ℓ) (ρ : Dev nD → PrngReg)

theorem hz : (![0, 0] : Fin 2 → Nat) = fun _ => 0 := funext fun a => by fin_cases a <;> rfl

/-- The result over the arrays as the region finds them: the activations as a matrix, the weight planes, and the scales
    and the bias as [1, 4096] rows. -/
def Rf (X : S8192x4096.Idx → EReal) (W0 W1 : S4096x4096.Idx → EReal) (S0 S1 B : S1x4096.Idx → EReal) :
    S8192x4096.Idx → EReal := fun i =>
  outElem (fun k => X (ix2 (⟨(i 0).val, idx2_lt0 i⟩ : Fin 8192) k))
    (fun k => W0 (ix2 (⟨(i 1).val, idx2_lt1 i⟩ : Fin 4096) k)) (fun k => W1 (ix2 (⟨(i 1).val, idx2_lt1 i⟩ : Fin 4096) k))
    (S0 (ix2 (0 : Fin 1) (⟨(i 1).val, idx2_lt1 i⟩ : Fin 4096))) (S1 (ix2 (0 : Fin 1) (⟨(i 1).val, idx2_lt1 i⟩ : Fin 4096)))
    (B (ix2 (0 : Fin 1) (⟨(i 1).val, idx2_lt1 i⟩ : Fin 4096)))

/-- The same at core `c`'s arrays. -/
abbrev R (c : Dev nD) : S8192x4096.Idx → EReal :=
  Rf (V m c main_v0) (V m c main_v1) (V m c main_v2) (V m c main_v3) (V m c main_v4) (V m c main_v5)

/-- The printed index maps, decided over the 256 points: the activations' block follows the tile's row block, the
    weights', scales' and bias' blocks its column block, and every other block index is 0. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (1 : Fin 2) ∧ win0_2.index t (1 : Fin 2) = 0
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2) :=
  (by decide +kernel : ∀ t : Fin grid0.N, _)

/-- Point t writes the tile in row block t mod 32 and column block t div 32. -/
theorem idx_out : ∀ t : Fin cfg0.N, win0_6.index t (0 : Fin 2) = t.val % 32 ∧ win0_6.index t (1 : Fin 2) = t.val / 32 :=
  (by decide +kernel : ∀ t : Fin grid0.N, _)

/-! ## Each input window's block as rows of its array -/

/-- The activations' block at point t is rows 256·(the tile's row block) … of the matrix. -/
theorem xblk_apply (c : Dev nD) (t : Fin cfg0.N) (y : S256x4096.Idx) (i : S8192x4096.Idx)
    (h0 : (i 0).val = win0_6.index t (0 : Fin 2) * 256 + (y 0).val) (h1 : (i 1).val = (y 1).val) :
    (iblk m c 0 t : Vec Ideal S256x4096 .f32) y = (V m c main_v0 : S8192x4096.Idx → EReal) i := by
  obtain ⟨e00, e01, e10, e11, e20, e21, e30, e31, e40, e41, e50, e51⟩ := idx_facts t
  unfold iblk
  rw [View.read_apply]
  show (V m c main_v0 : S8192x4096.Idx → EReal) _ = (V m c main_v0 : S8192x4096.Idx → EReal) _
  congr 1
  funext a
  apply Fin.ext
  match a with
  | ⟨0, _⟩ => show win0_0.index t (0 : Fin 2) * 256 + 1 * (y 0).val = (i 0).val; rw [h0, e00]; omega
  | ⟨1, _⟩ => show win0_0.index t (1 : Fin 2) * 4096 + 1 * (y 1).val = (i 1).val; rw [h1, e01]; omega

/-- Weight plane 1's block at point t is rows 512·(the tile's column block) … of the plane. -/
theorem w1blk_apply (c : Dev nD) (t : Fin cfg0.N) (y : S512x4096.Idx) (i : S4096x4096.Idx)
    (h0 : (i 0).val = win0_6.index t (1 : Fin 2) * 512 + (y 0).val) (h1 : (i 1).val = (y 1).val) :
    (iblk m c 1 t : Vec Ideal S512x4096 .bf16) y = (V m c main_v1 : S4096x4096.Idx → EReal) i := by
  obtain ⟨e00, e01, e10, e11, e20, e21, e30, e31, e40, e41, e50, e51⟩ := idx_facts t
  unfold iblk
  rw [View.read_apply]
  show (V m c main_v1 : S4096x4096.Idx → EReal) _ = (V m c main_v1 : S4096x4096.Idx → EReal) _
  congr 1
  funext a
  apply Fin.ext
  match a with
  | ⟨0, _⟩ => show win0_1.index t (0 : Fin 2) * 512 + 1 * (y 0).val = (i 0).val; rw [h0, e10]; omega
  | ⟨1, _⟩ => show win0_1.index t (1 : Fin 2) * 4096 + 1 * (y 1).val = (i 1).val; rw [h1, e11]; omega

/-- Weight plane 2's block at point t is rows 512·(the tile's column block) … of the plane. -/
theorem w2blk_apply (c : Dev nD) (t : Fin cfg0.N) (y : S512x4096.Idx) (i : S4096x4096.Idx)
    (h0 : (i 0).val = win0_6.index t (1 : Fin 2) * 512 + (y 0).val) (h1 : (i 1).val = (y 1).val) :
    (iblk m c 2 t : Vec Ideal S512x4096 .bf16) y = (V m c main_v2 : S4096x4096.Idx → EReal) i := by
  obtain ⟨e00, e01, e10, e11, e20, e21, e30, e31, e40, e41, e50, e51⟩ := idx_facts t
  unfold iblk
  rw [View.read_apply]
  show (V m c main_v2 : S4096x4096.Idx → EReal) _ = (V m c main_v2 : S4096x4096.Idx → EReal) _
  congr 1
  funext a
  apply Fin.ext
  match a with
  | ⟨0, _⟩ => show win0_2.index t (0 : Fin 2) * 512 + 1 * (y 0).val = (i 0).val; rw [h0, e20]; omega
  | ⟨1, _⟩ => show win0_2.index t (1 : Fin 2) * 4096 + 1 * (y 1).val = (i 1).val; rw [h1, e21]; omega

/-- The first scales' piece at point t is entries 512·(the tile's column block) … of the [1, 4096] row. -/
theorem s3blk_apply (c : Dev nD) (t : Fin cfg0.N) (y : S1x512.Idx) (i : S1x4096.Idx)
    (h0 : (i 0).val = (y 0).val) (h1 : (i 1).val = win0_6.index t (1 : Fin 2) * 512 + (y 1).val) :
    (iblk m c 3 t : Vec Ideal S1x512 .f32) y = (V m c main_v3 : S1x4096.Idx → EReal) i := by
  obtain ⟨e00, e01, e10, e11, e20, e21, e30, e31, e40, e41, e50, e51⟩ := idx_facts t
  unfold iblk
  rw [View.read_apply]
  show (V m c main_v3 : S1x4096.Idx → EReal) _ = (V m c main_v3 : S1x4096.Idx → EReal) _
  congr 1
  funext a
  apply Fin.ext
  match a with
  | ⟨0, _⟩ => show win0_3.index t (0 : Fin 2) * 1 + 1 * (y 0).val = (i 0).val; rw [h0, e30]; omega
  | ⟨1, _⟩ => show win0_3.index t (1 : Fin 2) * 512 + 1 * (y 1).val = (i 1).val; rw [h1, e31]; omega

/-- The second scales' piece at point t is entries 512·(the tile's column block) … of the [1, 4096] row. -/
theorem s4blk_apply (c : Dev nD) (t : Fin cfg0.N) (y : S1x512.Idx) (i : S1x4096.Idx)
    (h0 : (i 0).val = (y 0).val) (h1 : (i 1).val = win0_6.index t (1 : Fin 2) * 512 + (y 1).val) :
    (iblk m c 4 t : Vec Ideal S1x512 .f32) y = (V m c main_v4 : S1x4096.Idx → EReal) i := by
  obtain ⟨e00, e01, e10, e11, e20, e21, e30, e31, e40, e41, e50, e51⟩ := idx_facts t
  unfold iblk
  rw [View.read_apply]
  show (V m c main_v4 : S1x4096.Idx → EReal) _ = (V m c main_v4 : S1x4096.Idx → EReal) _
  congr 1
  funext a
  apply Fin.ext
  match a with
  | ⟨0, _⟩ => show win0_4.index t (0 : Fin 2) * 1 + 1 * (y 0).val = (i 0).val; rw [h0, e40]; omega
  | ⟨1, _⟩ => show win0_4.index t (1 : Fin 2) * 512 + 1 * (y 1).val = (i 1).val; rw [h1, e41]; omega

/-- The bias' piece at point t is entries 512·(the tile's column block) … of the [1, 4096] row. -/
theorem s5blk_apply (c : Dev nD) (t : Fin cfg0.N) (y : S1x512.Idx) (i : S1x4096.Idx)
    (h0 : (i 0).val = (y 0).val) (h1 : (i 1).val = win0_6.index t (1 : Fin 2) * 512 + (y 1).val) :
    (iblk m c 5 t : Vec Ideal S1x512 .f32) y = (V m c main_v5 : S1x4096.Idx → EReal) i := by
  obtain ⟨e00, e01, e10, e11, e20, e21, e30, e31, e40, e41, e50, e51⟩ := idx_facts t
  unfold iblk
  rw [View.read_apply]
  show (V m c main_v5 : S1x4096.Idx → EReal) _ = (V m c main_v5 : S1x4096.Idx → EReal) _
  congr 1
  funext a
  apply Fin.ext
  match a with
  | ⟨0, _⟩ => show win0_5.index t (0 : Fin 2) * 1 + 1 * (y 0).val = (i 0).val; rw [h0, e50]; omega
  | ⟨1, _⟩ => show win0_5.index t (1 : Fin 2) * 512 + 1 * (y 1).val = (i 1).val; rw [h1, e51]; omega

/-! ## A tile is a block of the whole-array function -/

/-- Element j of the tile stored at point t is the whole-array function at row 256·(row block) + j 0 and
    column 512·(column block) + j 1. -/
theorem tile_read (c : Dev nD) (t : Fin cfg0.N) (j : S256x512.Idx) (i : S8192x4096.Idx)
    (h0 : (i 0).val = win0_6.index t (0 : Fin 2) * 256 + (j 0).val)
    (h1 : (i 1).val = win0_6.index t (1 : Fin 2) * 512 + (j 1).val) :
    k0_pay1 (F := Ideal) (k0_pay3 (F := Ideal) (iblk m c 0 t)) (k0_pay5 (F := Ideal) (iblk m c 0 t) (iblk m c 1 t))
      (k0_pay6 (F := Ideal) (iblk m c 0 t) (iblk m c 2 t)) (k0_pay7 (F := Ideal) (iblk m c 3 t)) (k0_pay8 (F := Ideal) (iblk m c 4 t))
      (iblk m c 5 t) j = R m c i := by
  have hj : j = ix2 (⟨(j 0).val, idx2_lt0 j⟩ : Fin 256) (⟨(j 1).val, idx2_lt1 j⟩ : Fin 512) := by
    funext a; match a with | ⟨0, _⟩ => rfl | ⟨1, _⟩ => rfl
  have ht := tile_apply (iblk m c 0 t) (iblk m c 1 t) (iblk m c 2 t) (iblk m c 3 t) (iblk m c 4 t) (iblk m c 5 t)
    (⟨(j 0).val, idx2_lt0 j⟩ : Fin 256) (⟨(j 1).val, idx2_lt1 j⟩ : Fin 512)
  rw [← hj] at ht
  refine ht.trans ?_
  have e0 : (fun k : Fin 4096 => (iblk m c 0 t : Vec Ideal S256x4096 .f32) (ix2 (⟨(j 0).val, idx2_lt0 j⟩ : Fin 256) k))
      = fun k => (V m c main_v0 : S8192x4096.Idx → EReal) (ix2 (⟨(i 0).val, idx2_lt0 i⟩ : Fin 8192) k) :=
    funext fun k => xblk_apply m c t _ _ h0 rfl
  have e1 : (fun k : Fin 4096 => (iblk m c 1 t : Vec Ideal S512x4096 .bf16) (ix2 (⟨(j 1).val, idx2_lt1 j⟩ : Fin 512) k))
      = fun k => (V m c main_v1 : S4096x4096.Idx → EReal) (ix2 (⟨(i 1).val, idx2_lt1 i⟩ : Fin 4096) k) :=
    funext fun k => w1blk_apply m c t _ _ h1 rfl
  have e2 : (fun k : Fin 4096 => (iblk m c 2 t : Vec Ideal S512x4096 .bf16) (ix2 (⟨(j 1).val, idx2_lt1 j⟩ : Fin 512) k))
      = fun k => (V m c main_v2 : S4096x4096.Idx → EReal) (ix2 (⟨(i 1).val, idx2_lt1 i⟩ : Fin 4096) k) :=
    funext fun k => w2blk_apply m c t _ _ h1 rfl
  have e3 : (iblk m c 3 t : Vec Ideal S1x512 .f32) (ix2 (0 : Fin 1) (⟨(j 1).val, idx2_lt1 j⟩ : Fin 512))
      = (V m c main_v3 : S1x4096.Idx → EReal) (ix2 (0 : Fin 1) (⟨(i 1).val, idx2_lt1 i⟩ : Fin 4096)) :=
    s3blk_apply m c t _ _ rfl h1
  have e4 : (iblk m c 4 t : Vec Ideal S1x512 .f32) (ix2 (0 : Fin 1) (⟨(j 1).val, idx2_lt1 j⟩ : Fin 512))
      = (V m c main_v4 : S1x4096.Idx → EReal) (ix2 (0 : Fin 1) (⟨(i 1).val, idx2_lt1 i⟩ : Fin 4096)) :=
    s4blk_apply m c t _ _ rfl h1
  have e5 : (iblk m c 5 t : Vec Ideal S1x512 .f32) (ix2 (0 : Fin 1) (⟨(j 1).val, idx2_lt1 j⟩ : Fin 512))
      = (V m c main_v5 : S1x4096.Idx → EReal) (ix2 (0 : Fin 1) (⟨(i 1).val, idx2_lt1 i⟩ : Fin 4096)) :=
    s5blk_apply m c t _ _ rfl h1
  exact congr (congr (congr (congr (congr (congrArg outElem e0) e1) e2) e3) e4) e5

/-- WHAT POINT t WRITES BACK is block t of the whole-array function. -/
theorem flushed_eq (c : Dev nD) (t : Fin cfg0.N) :
    (dats m 0 c).flushed 6 t = ((cfg0.win 6).blk t).view.read (Elt Ideal) (R m c) := by
  show (cfg0.win 6).cut (grid0.coords t) ((dats m 0 c).after 6 t) = _
  rw [after0_6]
  unfold out0_6
  rw [View.canon_unit_zero hz]
  simp only [View.ld_unit_zero (S := S256x4096) hz, View.ld_unit_zero (S := S512x4096) hz, View.ld_unit_zero (S := S1x512) hz]
  funext j
  exact tile_read m c t j (((cfg0.win 6).blk t).view.emb j)
    (by show win0_6.index t (0 : Fin 2) * 256 + 1 * (j 0).val = _; omega)
    (by show win0_6.index t (1 : Fin 2) * 512 + 1 * (j 1).val = _; omega)

/-! ## The tiles cover the result -/

/-- An index of the result is in point t's tile iff each coordinate is in the tile's range on its axis. -/
theorem mem_blk (t : Fin cfg0.N) (i : S8192x4096.Idx) :
    i ∈ ((cfg0.win 6).blk t).view.set ↔ ∀ a : Fin 2, win0_6.index t a * S256x512.size a ≤ (i a).val
      ∧ (i a).val < win0_6.index t a * S256x512.size a + S256x512.size a := by
  show i ∈ ((View.whole main_v6).slice (win0_6.rect t)).set ↔ _
  rw [View.set_slice_whole, Rect.mem_set_unit]
  exact Iff.rfl

/-- THE RESULT ARRAY after the region is the whole-array function: index (n, o) is in the tile of the point
    32·(o div 512) + n div 256. -/
theorem final (c : Dev nD) : (dats m 0 c).arrAt 6 cfg0.N = R m c :=
  (dats m 0 c).arrAt_eq_of_cover 6 (R m c) (fun t _ => flushed_eq m c t) fun i => by
    have hi0 : (i 0).val < 8192 := (i 0).isLt
    have hi1 : (i 1).val < 4096 := (i 1).isLt
    have hN : cfg0.N = 256 := N_0
    obtain ⟨q0, q1⟩ := idx_out ⟨(i 1).val / 512 * 32 + (i 0).val / 256, by rw [hN]; omega⟩
    refine ⟨⟨(i 1).val / 512 * 32 + (i 0).val / 256, by rw [hN]; omega⟩, flush0_6 _, ?_⟩
    rw [mem_blk]
    intro a
    match a with
    | ⟨0, _⟩ =>
      show win0_6.index _ (0 : Fin 2) * 256 ≤ (i 0).val ∧ (i 0).val < win0_6.index _ (0 : Fin 2) * 256 + 256
      rw [q0]; show ((i 1).val / 512 * 32 + (i 0).val / 256) % 32 * 256 ≤ (i 0).val ∧ (i 0).val < ((i 1).val / 512 * 32 + (i 0).val / 256) % 32 * 256 + 256
      omega
    | ⟨1, _⟩ =>
      show win0_6.index _ (1 : Fin 2) * 512 ≤ (i 1).val ∧ (i 1).val < win0_6.index _ (1 : Fin 2) * 512 + 512
      rw [q1]; show ((i 1).val / 512 * 32 + (i 0).val / 256) / 32 * 512 ≤ (i 1).val ∧ (i 1).val < ((i 1).val / 512 * 32 + (i 0).val / 256) / 32 * 512 + 512
      omega

/-! ## The host's operations before and after the region -/

/-- As the region finds them: the activations reshaped to a matrix, each weight plane narrowed to bf16 (no change of an
    extended real), the scales and the bias as [1, 4096] rows. -/
theorem V_v0 (c : Dev nD) : (V m c main_v0 : S8192x4096.Idx → EReal)
    = shapeCast S8192x4096 (m ((c : Thread nD τ).loc main_arg0)) shapeCasts_S8192x4096x1x1_S8192x4096 := by
  show StableHlo.after hostOps0 (fun b => m (c, b)) (Proc.devRef .tc main_v0) = _
  after_results
  rfl
theorem V_v1 (c : Dev nD) : (V m c main_v1 : S4096x4096.Idx → EReal)
    = (truncf (F := Ideal) .bf16 (m ((c : Thread nD τ).loc main_arg1) : FVec Ideal S4096x4096 .f32) bitsLt_bf16_f32 : FVec Ideal S4096x4096 .bf16) := by
  show StableHlo.after hostOps0 (fun b => m (c, b)) (Proc.devRef .tc main_v1) = _
  after_results
theorem V_v2 (c : Dev nD) : (V m c main_v2 : S4096x4096.Idx → EReal)
    = (truncf (F := Ideal) .bf16 (m ((c : Thread nD τ).loc main_arg2) : FVec Ideal S4096x4096 .f32) bitsLt_bf16_f32 : FVec Ideal S4096x4096 .bf16) := by
  show StableHlo.after hostOps0 (fun b => m (c, b)) (Proc.devRef .tc main_v2) = _
  after_results
theorem V_v3 (c : Dev nD) : (V m c main_v3 : S1x4096.Idx → EReal)
    = shapeCast S1x4096 (m ((c : Thread nD τ).loc main_arg3)) shapeCasts_S4096_S1x4096 := by
  show StableHlo.after hostOps0 (fun b => m (c, b)) (Proc.devRef .tc main_v3) = _
  after_results
  rfl
theorem V_v4 (c : Dev nD) : (V m c main_v4 : S1x4096.Idx → EReal)
    = shapeCast S1x4096 (m ((c : Thread nD τ).loc main_arg4)) shapeCasts_S4096_S1x4096 := by
  show StableHlo.after hostOps0 (fun b => m (c, b)) (Proc.devRef .tc main_v4) = _
  after_results
  rfl
theorem V_v5 (c : Dev nD) : (V m c main_v5 : S1x4096.Idx → EReal)
    = shapeCast S1x4096 (m ((c : Thread nD τ).loc main_arg5)) shapeCasts_S4096_S1x4096 := by
  show StableHlo.after hostOps0 (fun b => m (c, b)) (Proc.devRef .tc main_v5) = _
  after_results
  rfl

/-- So the whole-array function over the region's arrays is `FakeQuant.G` of the arguments (the activations as a matrix). -/
theorem R_eq_G (c : Dev nD) : R m c = G (shapeCast S8192x4096 (m ((c : Thread nD τ).loc main_arg0)) shapeCasts_S8192x4096x1x1_S8192x4096) (m ((c : Thread nD τ).loc main_arg1)) (m ((c : Thread nD τ).loc main_arg2)) (m ((c : Thread nD τ).loc main_arg3)) (m ((c : Thread nD τ).loc main_arg4)) (m ((c : Thread nD τ).loc main_arg5)) := by
  show Rf (V m c main_v0) (V m c main_v1) (V m c main_v2) (V m c main_v3) (V m c main_v4) (V m c main_v5) = _
  rw [V_v0, V_v1, V_v2, V_v3, V_v4, V_v5]
  funext i
  unfold Rf G
  simp only [shapeCast_a_1a_apply]
  rfl

/-- The one operation after the region gives the result array its four-axis shape. -/
theorem tail_eq (c : Dev nD) :
    Pipeline.afterTail₀ cfgs (dats m) 0 (V0 m) [hostOps1] c main_v7
      = shapeCast S8192x4096x1x1 (R m c) shapeCasts_S8192x4096_S8192x4096x1x1 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = R m c :=
    (Pipeline.withArrays_arr spec0 launch0.win.arr_inj c (V0 m c) (fun w => (dats m 0 c).arrAt w (cfgs 0).N) 6).trans (final m c)
  rw [hw]
  rfl

/-! ## The run, read -/

/-- Every weakly fair execution of the program ends with the result buffer at `FakeQuant.G` of the arguments, in the
    result's four-axis shape, and with the arguments unchanged. -/
theorem run : θ_run defs (onTc (τ := τ) (main (F := Ideal))) ⟨m, fun _ => 0, ρ⟩ fun r => ∀ c : Dev nD,
      r.2.mem ((c.tc : Thread nD τ).loc main_v7)
        = shapeCast S8192x4096x1x1 (G (shapeCast S8192x4096 (m ((c : Thread nD τ).loc main_arg0)) shapeCasts_S8192x4096x1x1_S8192x4096) (m ((c : Thread nD τ).loc main_arg1)) (m ((c : Thread nD τ).loc main_arg2)) (m ((c : Thread nD τ).loc main_arg3)) (m ((c : Thread nD τ).loc main_arg4)) (m ((c : Thread nD τ).loc main_arg5))) shapeCasts_S8192x4096_S8192x4096x1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v7 (Pipeline.mem_restRefs_of main_v7 (by decide) (by decide))).trans
        ((tail_eq m c).trans (by rw [R_eq_G])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.RefStages.lean ====
/-
  The reference's operations read in five stretches.

  The reference computes, in order: the rows' largest magnitudes (kept as a column); softplus of that column; the
  rows' steps (softplus / 32767), the quotients by them and their rounding; the clip to the int16 range; and the two
  products with the weight planes, weighted by the channels' scales, times the step, plus the bias. Each stretch reads only
  a few buffers the stretches before it wrote, so each is stated for ANY contents `W` of the buffers that hold the earlier
  stages at an arbitrary argument `x0`: what the stretch leaves in its own result buffers is the next stage of the same
  `x0`. Chaining the five gives the whole fold of the operation list at the result buffer.
-/
import proofs.«424328_j1357209666480_3_alg».proof.Proof.RefRead
import Idealize.ShloMosaic.Lib.Pipeline.Frame

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The five stretches of the operation list: 5, 14, 6, 8 and 15 operations. -/
abbrev opsA : List (HloOp τ sig (Elt F)) := (ops (F := F)).take 5
abbrev opsB : List (HloOp τ sig (Elt F)) := ((ops (F := F)).drop 5).take 14
abbrev opsC : List (HloOp τ sig (Elt F)) := ((ops (F := F)).drop 19).take 6
abbrev opsD : List (HloOp τ sig (Elt F)) := ((ops (F := F)).drop 25).take 8
abbrev opsE : List (HloOp τ sig (Elt F)) := (ops (F := F)).drop 33

theorem ops_split : (ops : List (HloOp τ sig (Elt F))) = opsA ++ (opsB ++ (opsC ++ (opsD ++ opsE))) := rfl

/-- Stretch A: the activations as a matrix, and their rows' largest magnitudes as a column. -/
theorem stageA (W : Valuation τ sig (Elt F)) :
    after opsA W (Proc.devRef .tc main_v0) = val_main_v0 (F := F) (W (Proc.devRef .tc main_arg0))
    ∧ after opsA W (Proc.devRef .tc main_v3) = val_main_v3 (F := F) (W (Proc.devRef .tc main_arg0)) := by
  constructor
  · simp only [opsA, ops, List.take, List.drop]
    after_results_simp
    rfl
  · simp only [opsA, ops, List.take, List.drop]
    after_results_simp
    rfl

/-- Stretch B: softplus of the column, in its log-add-exp spelling. -/
theorem stageB (x0 : (⟨S8192x4096x1x1, .f32⟩ : BufTy).Contents (Elt F)) (W : Valuation τ sig (Elt F))
    (h3 : W (Proc.devRef .tc main_v3) = val_main_v3 (F := F) x0) :
    after opsB W (Proc.devRef .tc main_v4) = val_main_v4 (F := F) x0 := by
  simp only [opsB, ops, List.take, List.drop]
  after_results_simp
  try simp only [TRef.ofBuf, TRef.toBuf, cast_eq]
  rw [h3]
  rfl

/-- Stretch B leaves the activations' matrix alone. -/
theorem keptB_v0 (W : Valuation τ sig (Elt F)) : after opsB W (Proc.devRef .tc main_v0) = W (Proc.devRef .tc main_v0) := by
  simp only [opsB, ops, List.take, List.drop]
  after_results_simp

/-- Stretch C: the rows' steps, and the activations in those steps, rounded. -/
theorem stageC (x0 : (⟨S8192x4096x1x1, .f32⟩ : BufTy).Contents (Elt F)) (W : Valuation τ sig (Elt F))
    (h4 : W (Proc.devRef .tc main_v4) = val_main_v4 (F := F) x0) (h0 : W (Proc.devRef .tc main_v0) = val_main_v0 (F := F) x0) :
    after opsC W (Proc.devRef .tc main_v6) = val_main_v6 (F := F) x0
    ∧ after opsC W (Proc.devRef .tc main_v9) = val_main_v9 (F := F) x0 := by
  constructor
  · simp only [opsC, ops, List.take, List.drop]
    after_results_simp
    try simp only [TRef.ofBuf, TRef.toBuf, cast_eq]
    rw [h4]
    rfl
  · simp only [opsC, ops, List.take, List.drop]
    after_results_simp
    try simp only [TRef.ofBuf, TRef.toBuf, cast_eq]
    rw [h4, h0]
    rfl

/-- Stretch D: the clip to the int16 range. -/
theorem stageD (x0 : (⟨S8192x4096x1x1, .f32⟩ : BufTy).Contents (Elt F)) (W : Valuation τ sig (Elt F))
    (h9 : W (Proc.devRef .tc main_v9) = val_main_v9 (F := F) x0) :
    after opsD W (Proc.devRef .tc main_v10) = val_main_v10 (F := F) x0 := by
  simp only [opsD, ops, List.take, List.drop]
  after_results_simp
  try simp only [TRef.ofBuf, TRef.toBuf, cast_eq]
  rw [h9]
  rfl

/-- Stretch D leaves the rows' steps alone. -/
theorem keptD_v6 (W : Valuation τ sig (Elt F)) : after opsD W (Proc.devRef .tc main_v6) = W (Proc.devRef .tc main_v6) := by
  simp only [opsD, ops, List.take, List.drop]
  after_results_simp

/-- Stretch E: the two products, their weighting by the channels' scales, the step, the bias, and the result's shape. -/
theorem stageE (x0 : (⟨S8192x4096x1x1, .f32⟩ : BufTy).Contents (Elt F)) (x1 x2 : (⟨S4096x4096, .f32⟩ : BufTy).Contents (Elt F))
    (x3 x4 x5 : (⟨S4096, .f32⟩ : BufTy).Contents (Elt F)) (W : Valuation τ sig (Elt F))
    (h10 : W (Proc.devRef .tc main_v10) = val_main_v10 (F := F) x0) (h6 : W (Proc.devRef .tc main_v6) = val_main_v6 (F := F) x0)
    (a1 : W (Proc.devRef .tc main_arg1) = x1) (a2 : W (Proc.devRef .tc main_arg2) = x2) (a3 : W (Proc.devRef .tc main_arg3) = x3)
    (a4 : W (Proc.devRef .tc main_arg4) = x4) (a5 : W (Proc.devRef .tc main_arg5) = x5) :
    after opsE W (Proc.devRef .tc main_v25) = val_main_v25 (F := F) x0 x1 x2 x3 x4 x5 := by
  simp only [opsE, ops, List.take, List.drop]
  after_results_simp
  rw [h10, h6, a1, a2, a3, a4, a5]
  rfl

/-- No operation before stretch E writes a weight plane, a scale or the bias. -/
theorem kept_arg1 (W : Valuation τ sig (Elt F)) : after ((ops (F := F)).take 33) W (Proc.devRef .tc main_arg1) = W (Proc.devRef .tc main_arg1) := by
  simp only [ops, List.take]; after_results_simp
theorem kept_arg2 (W : Valuation τ sig (Elt F)) : after ((ops (F := F)).take 33) W (Proc.devRef .tc main_arg2) = W (Proc.devRef .tc main_arg2) := by
  simp only [ops, List.take]; after_results_simp
theorem kept_arg3 (W : Valuation τ sig (Elt F)) : after ((ops (F := F)).take 33) W (Proc.devRef .tc main_arg3) = W (Proc.devRef .tc main_arg3) := by
  simp only [ops, List.take]; after_results_simp
theorem kept_arg4 (W : Valuation τ sig (Elt F)) : after ((ops (F := F)).take 33) W (Proc.devRef .tc main_arg4) = W (Proc.devRef .tc main_arg4) := by
  simp only [ops, List.take]; after_results_simp
theorem kept_arg5 (W : Valuation τ sig (Elt F)) : after ((ops (F := F)).take 33) W (Proc.devRef .tc main_arg5) = W (Proc.devRef .tc main_arg5) := by
  simp only [ops, List.take]; after_results_simp

theorem take33 : (ops (F := F)).take 33 = opsA ++ (opsB ++ (opsC ++ opsD)) := rfl

/-- The first four stretches, chained: the clipped activations and the rows' steps as stages of the argument. -/
theorem prefix_v10 (V : Valuation τ sig (Elt F)) :
    after ((ops (F := F)).take 33) V (Proc.devRef .tc main_v10) = val_main_v10 (F := F) (V (Proc.devRef .tc main_arg0)) := by
  rw [take33, after_append, after_append, after_append]
  exact stageD _ _ (stageC _ _ (stageB _ _ (stageA V).2) ((keptB_v0 _).trans (stageA V).1)).2
theorem prefix_v6 (V : Valuation τ sig (Elt F)) :
    after ((ops (F := F)).take 33) V (Proc.devRef .tc main_v6) = val_main_v6 (F := F) (V (Proc.devRef .tc main_arg0)) := by
  rw [take33, after_append, after_append, after_append]
  exact (keptD_v6 _).trans (stageC _ _ (stageB _ _ (stageA V).2) ((keptB_v0 _).trans (stageA V).1)).1

/-- THE WHOLE FOLD at the result buffer is the last stage of the arguments. -/
theorem fold_eq (V : Valuation τ sig (Elt F)) :
    after (ops (F := F)) V (Proc.devRef .tc main_v25)
      = val_main_v25 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5)) := by
  have e : (ops (F := F)) = (ops (F := F)).take 33 ++ opsE := (List.take_append_drop 33 _).symm
  rw [e, after_append]
  exact stageE _ _ _ _ _ _ _ (prefix_v10 V) (prefix_v6 V) (kept_arg1 V) (kept_arg2 V) (kept_arg3 V) (kept_arg4 V) (kept_arg5 V)

end Cert.ReferenceIdeal.Stages

end
-- ==== Proof.RefValue.lean ====
/-
  The reference's last stage is the specification.

  Read one operation at a time, element (n, o) of the reference's [8192, 4096] result is
    ((Σ_k q (n, k) · w0 (o, k)) · s0 o + (Σ_k q (n, k) · w1 (o, k)) · s1 o) · scale n + bias o
  with `scale n = softplus (max_k |x (n, k)|) / 32767` and `q (n, k)` the entry over the scale, rounded and clipped: that is
  `FakeQuant.G` of the activations as a matrix. Three spellings differ from the specification's and meet it by a scalar
  fact each: the not-a-number test of softplus is an unordered comparison of a value with itself (never true on the
  extended reals), the exponent is the negation of a magnitude (the specification subtracts it from zero), and the scale
  divides by 32767 (the specification multiplies by the reciprocal).
-/
import proofs.«424328_j1357209666480_3_alg».proof.Proof.RefRead
import proofs.«424328_j1357209666480_3_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.ReadP Cert.FakeQuant

variable (x0 : (⟨S8192x4096x1x1, .f32⟩ : BufTy).Contents (Elt Ideal))

/-- The index over row n of the [8192] result whose coordinate on the reduced axis is k, is (n, k). -/
theorem lift_row (h : S8192x4096.Reduces [1] S8192) (n : Fin 8192) (k : Fin (S8192x4096.size 1)) :
    h.lift (ix1 n) k = ix2 n (⟨k.val, k.isLt⟩ : Fin 4096) := by
  funext c
  apply Fin.ext
  rw [Shape.Reduces.lift_val]
  unfold Shape.Reduces.liftVal
  match c with
  | ⟨0, _⟩ => rfl
  | ⟨1, _⟩ => rfl

theorem reduces_rows : S8192x4096.Reduces [1] S8192 := by decide

/-- From −∞ the host's reduce with a maximum body over the columns, at row n, is the fold of `max` over that row. -/
theorem host_rowmax (x : FVec Ideal S8192x4096 .f32) (n : Fin 8192) :
    Host.reduce FloatOps.maximumf x (constant (F := Ideal) S_ .f32 0xFF800000#32) reducesTo_S8192x4096_S8192_d1 h_S_ (ix1 n)
      = (Finset.univ : Finset (Fin 4096)).fold max negInf (fun k => x (ix2 n k)) := by
  rw [Host.reduce_eq_fold_single FloatOps.maximumf x _ reducesTo_S8192x4096_S8192_d1 reduces_rows h_S_]
  have hf : (x ∘ reduces_rows.lift (ix1 n)) = fun k : Fin 4096 => x (ix2 n k) :=
    funext fun k => congrArg x (lift_row reduces_rows n k)
  exact congrArg (fun f => Finset.fold max negInf f (Finset.univ : Finset (Fin 4096))) hf

/-- Row n's largest magnitude. -/
theorem amax_apply (n : Fin 8192) :
    val_main_v2 (F := Ideal) x0 (ix1 n) = rowAmax (fun k => val_main_v0 (F := Ideal) x0 (ix2 n k)) :=
  (host_rowmax (val_main_v1 (F := Ideal) x0) n).trans
    (congrArg (fun f => Finset.fold max negInf f (Finset.univ : Finset (Fin 4096)))
      (funext fun k => (rfl : val_main_v1 (F := Ideal) x0 (ix2 n k) = mag (val_main_v0 (F := Ideal) x0 (ix2 n k)))))

/-- softplus, entry by entry: the not-a-number branch is never taken, and the negated magnitude is the difference from zero. -/
theorem softplus_apply (j : S8192x1.Idx) :
    val_main_v4 (F := Ideal) x0 j = softplus (val_main_v3 (F := Ideal) x0 j) := by
  rw [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply]
  simp only [val_main_call0_cst_apply]
  generalize val_main_v3 (F := Ideal) x0 j = a
  show Scalar.select (Ideal.cmp .une (a - zero) (a - zero)) (a + zero)
    (max a zero + Ideal.log1p (Ideal.exp (-(mag (a - zero))))) = softplus a
  rw [cmp_une_self, select_zero, neg_eq_zero_sub]
  rfl

/-- A row's step: softplus of its largest magnitude over 32767, which is times the reciprocal. -/
theorem scale_apply (j : S8192x1.Idx) :
    val_main_v6 (F := Ideal) x0 j = softplus (val_main_v3 (F := Ideal) x0 j) * invQmax := by
  rw [val_main_v6_apply, softplus_apply, val_main_v5_apply, val_main_cst_0_apply]
  exact div_qmax _

/-- Row n's step at any column. -/
theorem rowScale_apply (n : Fin 8192) (j : S8192x1.Idx) (hj : (j 0).val = n.val) :
    val_main_v6 (F := Ideal) x0 j = rowScale (fun k => val_main_v0 (F := Ideal) x0 (ix2 n k)) := by
  rw [scale_apply, val_main_v3_apply]
  have e : idx_main_v3 j = ix1 n := by
    funext a; match a with | ⟨0, _⟩ => exact Fin.ext hj
  rw [e, amax_apply]
  rfl

/-- An entry over its row's step, rounded to the nearest integer and clipped to the int16 range. -/
theorem clip_apply (i : S8192x4096.Idx) :
    val_main_v10 (F := Ideal) x0 i = quant (val_main_v7 (F := Ideal) x0 i) (val_main_v0 (F := Ideal) x0 i) := by
  rw [val_main_v10_apply, val_main_call2_v4_apply, val_main_call2_v3_apply, val_main_cst_2_apply, val_main_call2_v2_apply,
    val_main_call2_v1_apply, val_main_call2_v0_apply, val_main_cst_1_apply, val_main_v9_apply, val_main_v8_apply]
  generalize val_main_v0 (F := Ideal) x0 i = v
  generalize val_main_v7 (F := Ideal) x0 i = s
  rfl

/-- Entry (n, k), quantised in row n's step. -/
theorem quant_apply (n : Fin 8192) (k : Fin 4096) :
    val_main_v10 (F := Ideal) x0 (ix2 n k)
      = quant (rowScale (fun k => val_main_v0 (F := Ideal) x0 (ix2 n k))) (val_main_v0 (F := Ideal) x0 (ix2 n k)) := by
  rw [clip_apply, val_main_v7_apply, rowScale_apply x0 n _ rfl]

variable (x1 x2 : (⟨S4096x4096, .f32⟩ : BufTy).Contents (Elt Ideal)) (x3 x4 x5 : (⟨S4096, .f32⟩ : BufTy).Contents (Elt Ideal))

/-- ELEMENT (n, o) of the last two-axis stage is `FakeQuant.G` of the activations as a matrix. -/
theorem v24_apply (i : S8192x4096.Idx) :
    val_main_v24 (F := Ideal) x0 x1 x2 x3 x4 x5 i = G (val_main_v0 (F := Ideal) x0) x1 x2 x3 x4 x5 i := by
  have hl1 : ∀ k, lidx_main_v11 i k = ix2 (⟨(i 0).val, idx2_lt0 i⟩ : Fin 8192) k := fun k => by
    funext a; match a with | ⟨0, _⟩ => rfl | ⟨1, _⟩ => rfl
  have hr1 : ∀ k, ridx_main_v11 i k = ix2 (⟨(i 1).val, idx2_lt1 i⟩ : Fin 4096) k := fun k => by
    funext a; match a with | ⟨0, _⟩ => rfl | ⟨1, _⟩ => rfl
  have hl2 : ∀ k, lidx_main_v12 i k = ix2 (⟨(i 0).val, idx2_lt0 i⟩ : Fin 8192) k := fun k => by
    funext a; match a with | ⟨0, _⟩ => rfl | ⟨1, _⟩ => rfl
  have hr2 : ∀ k, ridx_main_v12 i k = ix2 (⟨(i 1).val, idx2_lt1 i⟩ : Fin 4096) k := fun k => by
    funext a; match a with | ⟨0, _⟩ => rfl | ⟨1, _⟩ => rfl
  have h13 : idx_main_v13 (idx_main_v14 i) = ix1 (⟨(i 1).val, idx2_lt1 i⟩ : Fin 4096) := by
    funext a; match a with | ⟨0, _⟩ => rfl
  have h16 : idx_main_v16 (idx_main_v17 i) = ix1 (⟨(i 1).val, idx2_lt1 i⟩ : Fin 4096) := by
    funext a; match a with | ⟨0, _⟩ => rfl
  have h22 : idx_main_v22 (idx_main_v23 i) = ix1 (⟨(i 1).val, idx2_lt1 i⟩ : Fin 4096) := by
    funext a; match a with | ⟨0, _⟩ => rfl
  have hs : val_main_v20 (F := Ideal) x0 i = rowScale (fun k => val_main_v0 (F := Ideal) x0 (ix2 (⟨(i 0).val, idx2_lt0 i⟩ : Fin 8192) k)) := by
    rw [val_main_v20_apply, rowScale_apply x0 (⟨(i 0).val, idx2_lt0 i⟩ : Fin 8192) _ rfl]
  rw [val_main_v24_apply, val_main_v21_apply, val_main_v19_apply, val_main_v15_apply, val_main_v18_apply, val_main_v11_apply,
    val_main_v12_apply, val_main_v14_apply, val_main_v13_apply, val_main_v17_apply, val_main_v16_apply, val_main_v23_apply,
    val_main_v22_apply, hs, h13, h16, h22]
  simp only [hl1, hr1, hl2, hr2, quant_apply]
  rfl

/-- THE RESULT: the last stage is `FakeQuant.G` of the arguments (the activations as a matrix), in its four-axis shape. -/
theorem result_eq :
    val_main_v25 (F := Ideal) x0 x1 x2 x3 x4 x5
      = shapeCast S8192x4096x1x1
          (G (shapeCast S8192x4096 x0 shapeCasts_S8192x4096x1x1_S8192x4096) x1 x2 x3 x4 x5)
          shapeCasts_S8192x4096_S8192x4096x1x1 := by
  have e : val_main_v24 (F := Ideal) x0 x1 x2 x3 x4 x5 = G (val_main_v0 (F := Ideal) x0) x1 x2 x3 x4 x5 :=
    funext fun i => v24_apply x0 x1 x2 x3 x4 x5 i
  unfold val_main_v25
  rw [e]
  rfl

end Cert.ReferenceIdeal.RefValue

end
-- ==== Proof.lean ====
/-
  A dual-plane int8 linear layer over int16 fake-quantised activations: the tiled kernel against the whole-array reference.

  Both programs compute, for row n of the activations x and output channel o,
    ((Σ_k q (n, k) · w0 (o, k)) · s0 o + (Σ_k q (n, k) · w1 (o, k)) · s1 o) · scale n + bias o,
  where `scale n = softplus (max_k |x (n, k)|) / 32767` and `q (n, k)` is `x (n, k) / scale n` rounded to the nearest
  integer (ties to even) and clipped to [-32768, 32767]: `FakeQuant.G` (Proof/Spec.lean). The kernel evaluates it tile by
  tile, each tile holding whole rows of the contraction axis, so a row's largest magnitude inside a tile is the row's
  (Proof/KernelTile.lean), and the 256 tiles cover the result (Proof/KernelValue.lean). The reference evaluates it on whole
  arrays, read one operation at a time (Proof/RefStages.lean, Proof/RefValue.lean). The kernel multiplies softplus by a
  constant where the reference divides by 32767; the constant is named the exact 1/32767, and on every extended real the
  quotient by 32767 is the product with 1/32767. Narrowing a weight plane or the quantised activations to bf16 changes no
  extended real, and a matrix product into a zero accumulator is the host's `dot_general`: one sum over the 4096 columns on
  both sides. No step uses that the inputs are finite.
-/
import proofs.«424328_j1357209666480_3_alg».proof.Defs
import proofs.«424328_j1357209666480_3_alg».proof.Proof.Gen.Kernel
import proofs.«424328_j1357209666480_3_alg».proof.Proof.Gen.Kernel.Skeleton
import proofs.«424328_j1357209666480_3_alg».proof.Proof.Gen.Kernel.Launch
import proofs.«424328_j1357209666480_3_alg».proof.Proof.Gen.Kernel.Points
import proofs.«424328_j1357209666480_3_alg».proof.Proof.Gen.Kernel.Frame
import proofs.«424328_j1357209666480_3_alg».proof.Proof.Gen.KernelIdeal
import proofs.«424328_j1357209666480_3_alg».proof.Proof.Gen.KernelIdeal.Skeleton
import proofs.«424328_j1357209666480_3_alg».proof.Proof.Gen.KernelIdeal.Launch
import proofs.«424328_j1357209666480_3_alg».proof.Proof.Gen.KernelIdeal.Points
import proofs.«424328_j1357209666480_3_alg».proof.Proof.Gen.KernelIdeal.Frame
import proofs.«424328_j1357209666480_3_alg».proof.Proof.Gen.ReferenceIdeal
import proofs.«424328_j1357209666480_3_alg».proof.Proof.Gen.Pre_finite_inputs
import proofs.«424328_j1357209666480_3_alg».proof.Proof.Spec
import proofs.«424328_j1357209666480_3_alg».proof.Proof.KernelTile
import proofs.«424328_j1357209666480_3_alg».proof.Proof.KernelValue
import proofs.«424328_j1357209666480_3_alg».proof.Proof.RefRun
import proofs.«424328_j1357209666480_3_alg».proof.Proof.RefRead
import proofs.«424328_j1357209666480_3_alg».proof.Proof.RefStages
import proofs.«424328_j1357209666480_3_alg».proof.Proof.RefValue
import Idealize.ShloMosaic.PureOps.IdealRules
import Idealize.ShloMosaic.Adequacy
import Idealize.ShloMosaic.Init

noncomputable section

namespace Cert.Proof

open Idealize.ShloMosaic Idealize.SL.Sem

/-- The three frames: the kernel's at the word-level and at the ideal values are generated whole; the reference's is
    its run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one named constant: the word 0x38000100, the f32 nearest 1/32767, denotes 1/32767 at the ideal values. -/
theorem preserves : Cert.preserves_Kernel_KernelIdeal :=
  IdealRules.named_const.statement Cert.KernelIdeal.κ "inv_qmax" .f32 0x38000100#32 ((1 / 32767 : ℝ) : EReal) rfl

/-- At the ideal values the kernel's result ends at `FakeQuant.G` of the arguments (the tiles' cover) and the
    reference's at its last stage of arguments that agree, which is the same `G`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  have h1 := Cert.ReferenceIdeal.Stages.fold_eq (StableHlo.launchContents m' c)
  have h2 := Cert.ReferenceIdeal.RefValue.result_eq (StableHlo.launchContents m' c (Proc.devRef .tc Cert.ReferenceIdeal.main_arg0)) (StableHlo.launchContents m' c (Proc.devRef .tc Cert.ReferenceIdeal.main_arg1)) (StableHlo.launchContents m' c (Proc.devRef .tc Cert.ReferenceIdeal.main_arg2))
    (StableHlo.launchContents m' c (Proc.devRef .tc Cert.ReferenceIdeal.main_arg3)) (StableHlo.launchContents m' c (Proc.devRef .tc Cert.ReferenceIdeal.main_arg4)) (StableHlo.launchContents m' c (Proc.devRef .tc Cert.ReferenceIdeal.main_arg5))
  refine (h1.trans h2).trans ?_
  have a0 : StableHlo.launchContents m' c (Proc.devRef .tc Cert.ReferenceIdeal.main_arg0)
      = m ((c.tc : Thread Cert.KernelIdeal.nD Cert.KernelIdeal.τ).loc Cert.KernelIdeal.main_arg0) := (hagree c).1
  have a1 : StableHlo.launchContents m' c (Proc.devRef .tc Cert.ReferenceIdeal.main_arg1)
      = m ((c.tc : Thread Cert.KernelIdeal.nD Cert.KernelIdeal.τ).loc Cert.KernelIdeal.main_arg1) := (hagree c).2.1
  have a2 : StableHlo.launchContents m' c (Proc.devRef .tc Cert.ReferenceIdeal.main_arg2)
      = m ((c.tc : Thread Cert.KernelIdeal.nD Cert.KernelIdeal.τ).loc Cert.KernelIdeal.main_arg2) := (hagree c).2.2.1
  have a3 : StableHlo.launchContents m' c (Proc.devRef .tc Cert.ReferenceIdeal.main_arg3)
      = m ((c.tc : Thread Cert.KernelIdeal.nD Cert.KernelIdeal.τ).loc Cert.KernelIdeal.main_arg3) := (hagree c).2.2.2.1
  have a4 : StableHlo.launchContents m' c (Proc.devRef .tc Cert.ReferenceIdeal.main_arg4)
      = m ((c.tc : Thread Cert.KernelIdeal.nD Cert.KernelIdeal.τ).loc Cert.KernelIdeal.main_arg4) := (hagree c).2.2.2.2.1
  have a5 : StableHlo.launchContents m' c (Proc.devRef .tc Cert.ReferenceIdeal.main_arg5)
      = m ((c.tc : Thread Cert.KernelIdeal.nD Cert.KernelIdeal.τ).loc Cert.KernelIdeal.main_arg5) := (hagree c).2.2.2.2.2
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
